-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S320000x256 : Shape := ⟨2, ![320000, 256]⟩
abbrev S320000 : Shape := ⟨1, ![320000]⟩
abbrev S1x256 : Shape := ⟨2, ![1, 256]⟩
abbrev S1 : Shape := ⟨1, ![1]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S1x256 .f32) (main_arg7 : FVec F S1 .f32) (main_arg8 : FVec F S1x256 .f32) (main_arg9 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1x256 .f32 := Host.absf main_arg6
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x256 .f32 := Host.absf main_arg8
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg9 main_v33

def fn {F : FTy → Type} [FloatOps F] (main_arg0 : FVec F S10000x256 .f32) (main_arg1 : FVec F S320000x256 .f32) (main_arg2 : IVec S320000 32) (main_arg3 : IVec S320000 32) (main_arg4 : FVec F S1x256 .f32) (main_arg5 : FVec F S1 .f32) (main_arg6 : FVec F S1x256 .f32) (main_arg7 : FVec F S1 .f32) (main_arg8 : FVec F S1x256 .f32) (main_arg9 : FVec F S1 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000x256 .f32 := Host.absf main_arg1
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S1x256 .f32 := Host.absf main_arg4
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg6 main_arg7 main_arg8 main_arg9 main_v13 main_v16
-- ==== Kernel.lean ====
abbrev S10000x256 : Shape := ⟨2, ![10000, 256]⟩
abbrev S320000x256 : Shape := ⟨2, ![320000, 256]⟩
abbrev S320000 : Shape := ⟨1, ![320000]⟩
abbrev S1x256 : Shape := ⟨2, ![1, 256]⟩
abbrev S1 : Shape := ⟨1, ![1]⟩
abbrev S2x256 : Shape := ⟨2, ![2, 256]⟩
abbrev S2 : Shape := ⟨1, ![2]⟩
abbrev S1x2 : Shape := ⟨2, ![1, 2]⟩
abbrev S10000x2 : Shape := ⟨2, ![10000, 2]⟩
abbrev S2000x256 : Shape := ⟨2, ![2000, 256]⟩
abbrev S2000x2 : Shape := ⟨2, ![2000, 2]⟩
abbrev S2000 : Shape := ⟨1, ![2000]⟩
abbrev S2000x1 : Shape := ⟨2, ![2000, 1]⟩
abbrev S1x1 : Shape := ⟨2, ![1, 1]⟩
abbrev S10000x1 : Shape := ⟨2, ![10000, 1]⟩
abbrev S_ : Shape := ⟨0, ![]⟩
abbrev S320000x1 : Shape := ⟨2, ![320000, 1]⟩
abbrev S8000x256 : Shape := ⟨2, ![8000, 256]⟩
abbrev S8000x1 : Shape := ⟨2, ![8000, 1]⟩
abbrev S8000 : Shape := ⟨1, ![8000]⟩

abbrev nBuf : Space → Nat
  | .hbm => 36
  | .vmem => 16
  | .smem => 0
  | _ => 0

abbrev bufTy : (tb : Table) → Fin (tcTables nBuf tb) → BufTy
  | .hbm, ⟨0, _⟩ => ⟨S10000x256, .f32⟩
  | .hbm, ⟨1, _⟩ => ⟨S320000x256, .f32⟩
  | .hbm, ⟨2, _⟩ => ⟨S320000, .i32⟩
  | .hbm, ⟨3, _⟩ => ⟨S320000, .i32⟩
  | .hbm, ⟨4, _⟩ => ⟨S1x256, .f32⟩
  | .hbm, ⟨5, _⟩ => ⟨S1, .f32⟩
  | .hbm, ⟨6, _⟩ => ⟨S1x256, .f32⟩
  | .hbm, ⟨7, _⟩ => ⟨S1, .f32⟩
  | .hbm, ⟨8, _⟩ => ⟨S1x256, .f32⟩
  | .hbm, ⟨9, _⟩ => ⟨S1, .f32⟩
  | .hbm, ⟨10, _⟩ => ⟨S2x256, .f32⟩
  | .hbm, ⟨11, _⟩ => ⟨S2, .f32⟩
  | .hbm, ⟨12, _⟩ => ⟨S1x2, .f32⟩
  | .hbm, ⟨13, _⟩ => ⟨S10000x2, .f32⟩
  | .hbm, ⟨14, _⟩ => ⟨S10000x1, .f32⟩
  | .hbm, ⟨15, _⟩ => ⟨S10000x1, .f32⟩
  | .hbm, ⟨16, _⟩ => ⟨S_, .i32⟩
  | .hbm, ⟨17, _⟩ => ⟨S320000, .i32⟩
  | .hbm, ⟨18, _⟩ => ⟨S320000, .i1⟩
  | .hbm, ⟨19, _⟩ => ⟨S_, .i32⟩
  | .hbm, ⟨20, _⟩ => ⟨S320000, .i32⟩
  | .hbm, ⟨21, _⟩ => ⟨S320000, .i32⟩
  | .hbm, ⟨22, _⟩ => ⟨S320000, .i32⟩
  | .hbm, ⟨23, _⟩ => ⟨S320000x1, .i32⟩
  | .hbm, ⟨24, _⟩ => ⟨S320000x1, .f32⟩
  | .hbm, ⟨25, _⟩ => ⟨S_, .i32⟩
  | .hbm, ⟨26, _⟩ => ⟨S320000, .i32⟩
  | .hbm, ⟨27, _⟩ => ⟨S320000, .i1⟩
  | .hbm, ⟨28, _⟩ => ⟨S_, .i32⟩
  | .hbm, ⟨29, _⟩ => ⟨S320000, .i32⟩
  | .hbm, ⟨30, _⟩ => ⟨S320000, .i32⟩
  | .hbm, ⟨31, _⟩ => ⟨S320000, .i32⟩
  | .hbm, ⟨32, _⟩ => ⟨S320000x1, .i32⟩
  | .hbm, ⟨33, _⟩ => ⟨S320000x1, .f32⟩
  | .hbm, ⟨34, _⟩ => ⟨S1x1, .f32⟩
  | .hbm, ⟨35, _⟩ => ⟨S320000x1, .f32⟩
  | .local _ .vmem, ⟨0, _⟩ => ⟨S2000x256, .f32⟩
  | .local _ .vmem, ⟨1, _⟩ => ⟨S2000x256, .f32⟩
  | .local _ .vmem, ⟨2, _⟩ => ⟨S2x256, .f32⟩
  | .local _ .vmem, ⟨3, _⟩ => ⟨S1x2, .f32⟩
  | .local _ .vmem, ⟨4, _⟩ => ⟨S2000x2, .f32⟩
  | .local _ .vmem, ⟨5, _⟩ => ⟨S2000x2, .f32⟩
  | .local _ .vmem, ⟨6, _⟩ => ⟨S8000x256, .f32⟩
  | .local _ .vmem, ⟨7, _⟩ => ⟨S8000x256, .f32⟩
  | .local _ .vmem, ⟨8, _⟩ => ⟨S8000x1, .f32⟩
  | .local _ .vmem, ⟨9, _⟩ => ⟨S8000x1, .f32⟩
  | .local _ .vmem, ⟨10, _⟩ => ⟨S8000x1, .f32⟩
  | .local _ .vmem, ⟨11, _⟩ => ⟨S8000x1, .f32⟩
  | .local _ .vmem, ⟨12, _⟩ => ⟨S1x256, .f32⟩
  | .local _ .vmem, ⟨13, _⟩ => ⟨S1x1, .f32⟩
  | .local _ .vmem, ⟨14, _⟩ => ⟨S8000x1, .f32⟩
  | .local _ .vmem, ⟨15, _⟩ => ⟨S8000x1, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  concatenates_S1x256_S1x256_S2x256_d0 : Shape.Concatenates [S1x256, S1x256] S2x256 0
  concatenates_S1_S1_S2_d0 : Shape.Concatenates [S1, S1] S2 0
  shapeCasts_S2_S1x2 : S2.ShapeCasts S1x2
  inb_S2000x256_S2000x256_0_0 : ∀ a, (![0, 0] : Fin 2 → Nat) a + S2000x256.size a ≤ S2000x256.size a
  h_S2000x256 : 0 < S2000x256.numel
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S1x2_S1x2_0_0 : ∀ a, (![0, 0] : Fin 2 → Nat) a + S1x2.size a ≤ S1x2.size a
  h_S1x2 : 0 < S1x2.numel
  shapeCasts_S1x2_S1x2 : S1x2.ShapeCasts S1x2
  slices_S2x256_o0_0_S1x256 : S2x256.Slices ![0, 0] S1x256
  slices_S2x256_o1_0_S1x256 : S2x256.Slices ![1, 0] S1x256
  broadcasts_S1x256_S2000x256 : S1x256.Broadcasts S2000x256
  reduces_S2000x256_S2000 : S2000x256.Reduces [1] S2000
  shapeCasts_S2000_S2000x1 : S2000.ShapeCasts S2000x1
  slices_S1x2_o0_0_S1x1 : S1x2.Slices ![0, 0] S1x1
  broadcasts_S1x1_S2000x1 : S1x1.Broadcasts S2000x1
  slices_S1x2_o0_1_S1x1 : S1x2.Slices ![0, 1] S1x1
  concatenates_S2000x1_S2000x1_S2000x2_d1 : Shape.Concatenates [S2000x1, S2000x1] S2000x2 1
  inb_S2000x2_S2000x2_0_0 : ∀ a, (![0, 0] : Fin 2 → Nat) a + S2000x2.size a ≤ S2000x2.size a
  h_S2000x2 : 0 < S2000x2.numel
  slices_S10000x2_S10000x1_0_0 : S10000x2.Slices ![0, 0] S10000x1
  slices_S10000x2_S10000x1_0_1 : S10000x2.Slices ![0, 1] S10000x1
  bcast_S_S320000 : S_.BroadcastsInDim S320000 (![] : Fin 0 → Fin S320000.rank)
  bcast_S320000_S320000x1_0 : S320000.BroadcastsInDim S320000x1 (![0] : Fin 1 → Fin S320000x1.rank)
  shapeCasts_S1_S1x1 : S1.ShapeCasts S1x1
  inb_S8000x256_S8000x256_0_0 : ∀ a, (![0, 0] : Fin 2 → Nat) a + S8000x256.size a ≤ S8000x256.size a
  h_S8000x256 : 0 < S8000x256.numel
  inb_S1x256_S1x256_0_0 : ∀ a, (![0, 0] : Fin 2 → Nat) a + S1x256.size a ≤ S1x256.size a
  h_S1x256 : 0 < S1x256.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x256_S8000x256 : S1x256.Broadcasts S8000x256
  reduces_S8000x256_S8000 : S8000x256.Reduces [1] S8000
  shapeCasts_S8000_S8000x1 : S8000.ShapeCasts S8000x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  gather_S10000x1_S320000x1_S320000x1_1_0_n_n_0_1_11_wf : GatherDims.WF S10000x1 S320000x1 S320000x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x256.size a ≤ S2x256.size a
  hwx0_1 : ∀ i : grid0.Coords, EltTy.bits .f32 = 32 ∨ (Rect.block (s := S2x256) S2x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x2.size a ≤ S10000x2.size a
  hwx0_3 : ∀ i : grid0.Coords, EltTy.bits .f32 = 32 ∨ (Rect.block (s := S10000x2) S2000x2.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x256.size a ≤ S320000x256.size a
  hwx1_0 : ∀ i : grid1.Coords, EltTy.bits .f32 = 32 ∨ (Rect.block (s := S320000x256) S8000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S320000x1.size a
  hwx1_1 : ∀ i : grid1.Coords, EltTy.bits .f32 = 32 ∨ (Rect.block (s := S320000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S320000x1.size a
  hwx1_2 : ∀ i : grid1.Coords, EltTy.bits .f32 = 32 ∨ (Rect.block (s := S320000x1) S8000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x1.size a ≤ S320000x1.size a
  hwx1_5 : ∀ i : grid1.Coords, EltTy.bits .f32 = 32 ∨ (Rect.block (s := S320000x1) S8000x1.size (cc1_transform_5 i) (hinb1_5 i)).WholeWords (EltTy.packing .f32)

variable [Facts₀]

def gather_S10000x1_S320000x1_S320000x1_1_0_n_n_0_1_11 : GatherDims S10000x1 S320000x1 S320000x1 where
  offsetDims := [1]
  collapsedSliceDims := [0]
  operandBatchingDims := []
  startIndicesBatchingDims := []
  startIndexMap := [0]
  indexVectorDim := 1
  sliceSizes := ![1, 1]
  wf := gather_S10000x1_S320000x1_S320000x1_1_0_n_n_0_1_11_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2000x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S8000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x256 : Shape := ⟨2, ![10000, 256]⟩
abbrev S320000x256 : Shape := ⟨2, ![320000, 256]⟩
abbrev S320000 : Shape := ⟨1, ![320000]⟩
abbrev S1x256 : Shape := ⟨2, ![1, 256]⟩
abbrev S1 : Shape := ⟨1, ![1]⟩
abbrev S256x1 : Shape := ⟨2, ![256, 1]⟩
abbrev S10000x1 : Shape := ⟨2, ![10000, 1]⟩
abbrev S1x1 : Shape := ⟨2, ![1, 1]⟩
abbrev S_ : Shape := ⟨0, ![]⟩
abbrev S320000x1 : Shape := ⟨2, ![320000, 1]⟩

abbrev nBuf : Space → Nat
  | .hbm => 53
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S320000x256, .f32⟩
  | .hbm, ⟨2, _⟩ => ⟨S320000, .i32⟩
  | .hbm, ⟨3, _⟩ => ⟨S320000, .i32⟩
  | .hbm, ⟨4, _⟩ => ⟨S1x256, .f32⟩
  | .hbm, ⟨5, _⟩ => ⟨S1, .f32⟩
  | .hbm, ⟨6, _⟩ => ⟨S1x256, .f32⟩
  | .hbm, ⟨7, _⟩ => ⟨S1, .f32⟩
  | .hbm, ⟨8, _⟩ => ⟨S1x256, .f32⟩
  | .hbm, ⟨9, _⟩ => ⟨S1, .f32⟩
  | .hbm, ⟨10, _⟩ => ⟨S256x1, .f32⟩
  | .hbm, ⟨11, _⟩ => ⟨S10000x1, .f32⟩
  | .hbm, ⟨12, _⟩ => ⟨S1x1, .f32⟩
  | .hbm, ⟨13, _⟩ => ⟨S10000x1, .f32⟩
  | .hbm, ⟨14, _⟩ => ⟨S10000x1, .f32⟩
  | .hbm, ⟨15, _⟩ => ⟨S256x1, .f32⟩
  | .hbm, ⟨16, _⟩ => ⟨S10000x1, .f32⟩
  | .hbm, ⟨17, _⟩ => ⟨S1x1, .f32⟩
  | .hbm, ⟨18, _⟩ => ⟨S10000x1, .f32⟩
  | .hbm, ⟨19, _⟩ => ⟨S10000x1, .f32⟩
  | .hbm, ⟨20, _⟩ => ⟨S_, .i32⟩
  | .hbm, ⟨21, _⟩ => ⟨S320000, .i32⟩
  | .hbm, ⟨22, _⟩ => ⟨S320000, .i1⟩
  | .hbm, ⟨23, _⟩ => ⟨S_, .i32⟩
  | .hbm, ⟨24, _⟩ => ⟨S320000, .i32⟩
  | .hbm, ⟨25, _⟩ => ⟨S320000, .i32⟩
  | .hbm, ⟨26, _⟩ => ⟨S320000, .i32⟩
  | .hbm, ⟨27, _⟩ => ⟨S320000x1, .i32⟩
  | .hbm, ⟨28, _⟩ => ⟨S320000x1, .f32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S320000x1, .f32⟩
  | .hbm, ⟨38, _⟩ => ⟨S320000x1, .f32⟩
  | .hbm, ⟨39, _⟩ => ⟨S256x1, .f32⟩
  | .hbm, ⟨40, _⟩ => ⟨S320000x1, .f32⟩
  | .hbm, ⟨41, _⟩ => ⟨S1x1, .f32⟩
  | .hbm, ⟨42, _⟩ => ⟨S320000x1, .f32⟩
  | .hbm, ⟨43, _⟩ => ⟨S320000x1, .f32⟩
  | .hbm, ⟨44, _⟩ => ⟨S320000x1, .f32⟩
  | .hbm, ⟨45, _⟩ => ⟨S320000x1, .f32⟩
  | .hbm, ⟨46, _⟩ => ⟨S320000x1, .f32⟩
  | .hbm, ⟨47, _⟩ => ⟨S_, .f32⟩
  | .hbm, ⟨48, _⟩ => ⟨S320000x1, .f32⟩
  | .hbm, ⟨49, _⟩ => ⟨S320000x1, .f32⟩
  | .hbm, ⟨50, _⟩ => ⟨S_, .f32⟩
  | .hbm, ⟨51, _⟩ => ⟨S320000x1, .f32⟩
  | .hbm, ⟨52, _⟩ => ⟨S320000x1, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  transposes_S1x256_S256x1_1_0 : S1x256.Transposes [1, 0] S256x1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S320000 : S_.BroadcastsInDim S320000 (![] : Fin 0 → Fin S320000.rank)
  bcast_S320000_S320000x1_0 : S320000.BroadcastsInDim S320000x1 (![0] : Fin 1 → Fin S320000x1.rank)
  bcast_S1x1_S320000x1_0_1 : S1x1.BroadcastsInDim S320000x1 (![0, 1] : Fin 2 → Fin S320000x1.rank)
  bcast_S_S320000x1 : S_.BroadcastsInDim S320000x1 (![] : Fin 0 → Fin S320000x1.rank)
  dot_S10000x256_S256x1_S10000x1_1_0_0_1_n_n_wf : DotDims.WF S10000x256 S256x1 S10000x1 [1] [0] [0] [1] [] []
  gather_S10000x1_S320000x1_S320000x1_1_0_n_n_0_1_11_wf : GatherDims.WF S10000x1 S320000x1 S320000x1 [1] [0] [] [0] [] 1 ![1, 1]
  dot_S320000x256_S256x1_S320000x1_1_0_0_1_n_n_wf : DotDims.WF S320000x256 S256x1 S320000x1 [1] [0] [0] [1] [] []

variable [Facts₀]

def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf
def gather_S10000x1_S320000x1_S320000x1_1_0_n_n_0_1_11 : GatherDims S10000x1 S320000x1 S320000x1 where
  offsetDims := [1]
  collapsedSliceDims := [0]
  operandBatchingDims := []
  startIndicesBatchingDims := []
  startIndexMap := [0]
  indexVectorDim := 1
  sliceSizes := ![1, 1]
  wf := gather_S10000x1_S320000x1_S320000x1_1_0_n_n_0_1_11_wf
def dot_S320000x256_S256x1_S320000x1_1_0_0_1_n_n : DotDims S320000x256 S256x1 S320000x1 where
  lhsContracting := [1]
  rhsContracting := [0]
  lhsNonContracting := [0]
  rhsNonContracting := [1]
  lhsBatch := []
  rhsBatch := []
  wf := dot_S320000x256_S256x1_S320000x1_1_0_0_1_n_n_wf

class Facts : Prop extends Facts₀ where

variable [Facts]
-- ==== Proof.LibKeepdims.lean ====
/-
  Keepdims layouts read at an index, for values of any element type.

  A reduction written with `keepdims=True` leaves a unit axis behind and is then broadcast back over the
  reduced axis. Two of the layout steps this produces are read here at an index given by coordinates:

  * a vector `[a]` recast as a column `[a, 1]` holds, at `(i, u)`, the vector's entry `i` (the unit
    coordinate `u` can only be `0`, and the row-major positions `i` and `i * 1 + u` agree);
  * a column `[a, 1]` broadcast to `[a, b]` holds, at `(p, c)`, the column's entry `(p, 0)`: the unit axis
    is read at `0`, the other axis at the same coordinate (when `a = 1` that coordinate is `0` anyway).

  Together with the row forms (`[a] → [1, a]` and `[1, b] → [a, b]`) of the layout library these cover both
  operands of `rowsum[:, None] + colsum[None, :]`.
-/
import Idealize.ShloMosaic.Lib.ValueLayout

namespace KeepdimsLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsLayout
-- ==== Proof.LibRowDot.lean ====
/-
  A row's dot product with one weight row, kept as a column, plus a scalar bias, read at an index.

  A linear layer of output width one is computed on the vector unit as: broadcast the weight row `[1, d]` over the
  `n` rows of `x : [n, d]`, multiply entrywise, add up each row (a reduction along axis 1 from zero), recast the
  `[n]` result as the column `[n, 1]`, and add the bias `[1, 1]` broadcast down the column. Over the extended reals
  the entry `(p, u)` of that column is `∑ k, x[p, k] · w[0, k] + b[0, 0]`: the reduction is the plain finite sum over
  the row's coordinates, and the zero it starts from is the sum's neutral element.
-/
import proofs.«171114_j64407329571242_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

namespace RowDot

open Idealize.ShloMosaic Idealize.ShloMosaic.ValueIdx

/-- The index of an `[n, d]` array that a reduction along axis 1 visits over the result index `p` with coordinate
    `k` on the summed axis is `(p, k)`. -/
theorem lift_axis1 {n d : ℕ} (h : (⟨2, ![n, d]⟩ : Shape).Reduces [1] (⟨1, ![n]⟩ : Shape)) (p : Fin n)
    (k : Fin ((⟨2, ![n, d]⟩ : Shape).size 1)) : h.lift (ix1 p) k = ix2 p (⟨k.val, k.isLt⟩ : Fin d) := by
  funext c; apply Fin.ext
  fin_cases c <;> rfl

/-- A row sum of an `[n, d]` array over the extended reals, read at row `p`: the finite sum of the row's entries. -/
theorem rowsum_apply {n d : ℕ} (y : FVec Ideal (⟨2, ![n, d]⟩ : Shape) .f32)
    (h : (⟨2, ![n, d]⟩ : Shape).Reduces [1] (⟨1, ![n]⟩ : Shape)) (hφ : FKind.Formats .f32)
    (hacc : (0x00000000#32 : BitVec 32) = 0x00000000#32) (p : Fin n) :
    multiReduction .add [1] (⟨1, ![n]⟩ : Shape) y 0x00000000#32 h hφ hacc (ix1 p) = ∑ k : Fin d, y (ix2 p k) :=
  (Ideal.multiReduction_add_single y 0x00000000#32 h hφ hacc (ix1 p)).trans
    (Finset.sum_congr rfl fun k _ => congrArg y (lift_axis1 h p k))

/-- The column of row-by-weight dot products plus bias, at `(p, u)`. -/
theorem rowdot_col_apply {n d : ℕ} (x : FVec Ideal (⟨2, ![n, d]⟩ : Shape) .f32) (w : FVec Ideal (⟨2, ![1, d]⟩ : Shape) .f32)
    (b : FVec Ideal (⟨2, ![1, 1]⟩ : Shape) .f32)
    (hw : (⟨2, ![1, d]⟩ : Shape).Broadcasts ⟨2, ![n, d]⟩)
    (h : (⟨2, ![n, d]⟩ : Shape).Reduces [1] (⟨1, ![n]⟩ : Shape)) (hφ : FKind.Formats .f32)
    (hacc : (0x00000000#32 : BitVec 32) = 0x00000000#32)
    (hc : (⟨1, ![n]⟩ : Shape).ShapeCasts ⟨2, ![n, 1]⟩)
    (hb : (⟨2, ![1, 1]⟩ : Shape).Broadcasts ⟨2, ![n, 1]⟩) (p : Fin n) (u : Fin 1) :
    addf (shapeCast (⟨2, ![n, 1]⟩ : Shape)
        (multiReduction .add [1] (⟨1, ![n]⟩ : Shape) (mulf x (broadcastTo (⟨2, ![n, d]⟩ : Shape) w hw)) 0x00000000#32 h hφ hacc) hc)
      (broadcastTo (⟨2, ![n, 1]⟩ : Shape) b hb) (ix2 p u)
      = (∑ k : Fin d, x (ix2 p k) * w (ix2 (0 : Fin 1) k)) + b (ix2 (0 : Fin 1) (0 : Fin 1)) := by
  have hu : u = 0 := Fin.ext (by omega)
  subst hu
  refine (addf_apply _ _ _).trans ?_
  refine (congrArg₂ (· + ·) ((KeepdimsLayout.shapeCast_a_a1_apply _ hc p 0).trans (rowsum_apply _ h hφ hacc p))
    (broadcastTo_1b_ab_apply b hb p 0)).trans ?_
  refine congrArg (· + b (ix2 (0 : Fin 1) (0 : Fin 1))) (Finset.sum_congr rfl fun k _ => ?_)
  exact (mulf_apply _ _ _).trans (congrArg (x (ix2 p k) * ·) (broadcastTo_1b_ab_apply w hw p k))

end RowDot
-- ==== Proof.Payloads.lean ====
/-
  The two kernel bodies' stored values, read at an index, over the extended reals.

  The node kernel stores, at `(p, q)` of its `[2000, 2]` block, the dot product of row `p` of the feature block with
  weight row `q` plus bias `q`: column 0 is the source gate, column 1 the destination gate (the two columns are
  concatenated along axis 1, each a keepdims row-dot column).

  The edge kernel stores, at `(p, 0)` of its `[8000, 1]` block, the logistic function of
  `(s[p] + d[p]) + (ef[p, :] · w + b)`, where `s`, `d` are the gathered source and destination gates.
-/
import proofs.«171114_j64407329571242_1_alg».proof.Proof.Gen.KernelIdeal.Skeleton
import proofs.«171114_j64407329571242_1_alg».proof.Proof.LibRowDot

noncomputable section

namespace Cert.KernelIdeal.Payloads

open Cert.KernelIdeal Cert.KernelIdeal.Gen Idealize.ShloMosaic Idealize.ShloMosaic.ValueIdx Idealize.ShloMosaic.TcCoe

/-- The node kernel's stored block at `(p, q)`: row `p` against weight row `q`, plus bias `q`. -/
theorem node_pay_apply (x0 : Vec Ideal S2000x256 .f32) (x1 : Vec Ideal S2x256 .f32) (x2 : Vec Ideal S1x2 .f32)
    (p : Fin 2000) (q : Fin 2) :
    k0_pay1 (F := Ideal) x0 x1 x2 (ix2 p q)
      = (∑ k : Fin 256, x0 (ix2 p k) * x1 (ix2 q k)) + x2 (ix2 (0 : Fin 1) q) := by
  unfold k0_pay1
  rw [shapeCast_self, shapeCast_self]
  match q with
  | ⟨0, _⟩ =>
    refine (concatenate_pair_apply_left (t := S2000x2) (s₁ := S2000x1) (s₂ := S2000x1) (1 : Fin 2) _ _
      concatenates_S2000x1_S2000x1_S2000x2_d1 (ix2 p (0 : Fin 2)) rfl (ix2 p (0 : Fin 1))
      (fun b => by match b with | ⟨0, _⟩ => rfl | ⟨1, _⟩ => rfl)).trans ?_
    refine (RowDot.rowdot_col_apply x0 _ _ _ _ _ _ _ _ p 0).trans ?_
    rw [slice2_axis1_apply 0 x2 _ (0 : Fin 1) (0 : Fin 1) (0 : Fin 2) rfl]
    refine congrArg (· + x2 (ix2 (0 : Fin 1) (0 : Fin 2))) (Finset.sum_congr rfl fun k _ => ?_)
    rw [slice2_axis0_apply 0 x1 _ (0 : Fin 1) k (0 : Fin 2) rfl]
    rfl
  | ⟨1, _⟩ =>
    refine (concatenate_pair_apply_right (t := S2000x2) (s₁ := S2000x1) (s₂ := S2000x1) (1 : Fin 2) _ _
      concatenates_S2000x1_S2000x1_S2000x2_d1 (ix2 p (1 : Fin 2)) rfl rfl (ix2 p (0 : Fin 1))
      (fun b hb => by match b with | ⟨0, _⟩ => rfl | ⟨1, _⟩ => exact absurd rfl hb) rfl).trans ?_
    refine (RowDot.rowdot_col_apply x0 _ _ _ _ _ _ _ _ p 0).trans ?_
    rw [slice2_axis1_apply 1 x2 _ (0 : Fin 1) (0 : Fin 1) (1 : Fin 2) rfl]
    refine congrArg (· + x2 (ix2 (0 : Fin 1) (1 : Fin 2))) (Finset.sum_congr rfl fun k _ => ?_)
    rw [slice2_axis0_apply 1 x1 _ (0 : Fin 1) k (1 : Fin 2) rfl]
    rfl

/-- The logistic function applied entrywise, read at an index. -/
theorem logistic_apply {s : Shape} (v : FVec Ideal s .f32) (i : s.Idx) : logistic v i = Ideal.logistic (v i) := rfl

/-- The edge kernel's stored block at `(p, u)`: the logistic function of the two gathered gates added, plus the edge
    row's dot product with the weight row and the bias. -/
theorem edge_pay_apply (v0 : Vec Ideal S8000x256 .f32) (v1 : Vec Ideal S1x256 .f32) (v2 : Vec Ideal S1x1 .f32)
    (v10 : Vec Ideal S8000x1 .f32) (v12 : Vec Ideal S8000x1 .f32) (p : Fin 8000) (u : Fin 1) :
    k1_pay1 (F := Ideal) v0 v1 v2 v10 v12 (ix2 p u)
      = Ideal.logistic ((v10 (ix2 p u) + v12 (ix2 p u))
          + ((∑ k : Fin 256, v0 (ix2 p k) * v1 (ix2 (0 : Fin 1) k)) + v2 (ix2 (0 : Fin 1) (0 : Fin 1)))) := by
  unfold k1_pay1
  rw [shapeCast_self, shapeCast_self, shapeCast_self]
  refine (logistic_apply _ _).trans (congrArg Ideal.logistic ?_)
  refine (addf_apply _ _ _).trans (congrArg₂ (· + ·) (addf_apply _ _ _) ?_)
  exact RowDot.rowdot_col_apply v0 v1 v2 _ _ _ _ _ _ p u

end Cert.KernelIdeal.Payloads

end
-- ==== Proof.NodeRegion.lean ====
/-
  The first kernel region, as a value: after its 5 grid points the `[10000, 2]` output array holds, at `(n, q)`,
  the dot product of node `n`'s feature row with weight row `q` plus bias `q` (column 0 the source gate, column 1
  the destination gate), of the arrays as the region finds them. Point `t` handles nodes `2000 t … 2000 t + 1999`;
  the 5 blocks tile the array.
-/
import proofs.«171114_j64407329571242_1_alg».proof.Proof.Gen.KernelIdeal.Frame
import proofs.«171114_j64407329571242_1_alg».proof.Proof.Payloads

set_option maxRecDepth 16384

noncomputable section

namespace Cert.KernelIdeal.NodeRegion

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The table of node gates: entry `(n, q)` is row `n` of the features against weight row `q`, plus bias `q`. -/
def nodeGates (X : S10000x256.Idx → EReal) (W : S2x256.Idx → EReal) (B : S1x2.Idx → EReal) : S10000x2.Idx → EReal :=
  fun i => (∑ k : Fin 256, X (ix2 (⟨(i 0).val, (i 0).isLt⟩ : Fin 10000) k) * W (ix2 (⟨(i 1).val, (i 1).isLt⟩ : Fin 2) k))
    + B (ix2 (0 : Fin 1) (⟨(i 1).val, (i 1).isLt⟩ : Fin 2))

/-- A stored block whose feature rows are rows `r * 2000 + p` of the feature array holds, at `j`, the table's entry
    at row `r * 2000 + j₀`, column `j₁`. -/
theorem node_block_eq (x0 : Vec Ideal S2000x256 .f32) (x1 : Vec Ideal S2x256 .f32) (x2 : Vec Ideal S1x2 .f32)
    (X : S10000x256.Idx → EReal) (W : S2x256.Idx → EReal) (B : S1x2.Idx → EReal) (r : ℕ)
    (h0 : ∀ (p : Fin 2000) (k : Fin 256) (n : Fin 10000), n.val = r * 2000 + p.val → x0 (ix2 p k) = X (ix2 n k))
    (h1 : x1 = W) (h2 : x2 = B) (j : S2000x2.Idx) (i : S10000x2.Idx)
    (hi0 : (i 0).val = r * 2000 + (j 0).val) (hi1 : (i 1).val = (j 1).val) :
    k0_pay1 (F := Ideal) x0 x1 x2 j = nodeGates X W B i := by
  subst h1 h2
  obtain ⟨p, q, rfl⟩ : ∃ (p : Fin 2000) (q : Fin 2), j = ix2 p q := ⟨j 0, j 1, eq_ix2 j⟩
  have hi0' : (i 0).val = r * 2000 + p.val := hi0
  have hi1' : (i 1).val = q.val := hi1
  rw [Payloads.node_pay_apply]
  unfold nodeGates
  have hq : (⟨(i 1).val, (i 1).isLt⟩ : Fin 2) = q := Fin.ext hi1'
  rw [hq]
  refine congrArg (· + x2 (ix2 (0 : Fin 1) q)) (Finset.sum_congr rfl fun k _ => ?_)
  rw [h0 p k ⟨(i 0).val, (i 0).isLt⟩ hi0']

variable (V : (c : Dev nD) → (b : Ref sig .tc) → Buf (Elt Ideal) ((c : Thread nD τ).loc b))

/-- The printed index maps over the five grid points: the feature window and the output window sit at block row `t`,
    the weight and bias windows at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the gate table of the arrays as the region finds them. -/
theorem flushed0_eq (c : Dev nD) (t : Fin cfg0.N) :
    (dat0 V c).flushed 3 t = ((cfg0.win 3).blk t).view.read (Elt Ideal)
      (nodeGates (V c main_arg0) (V c main_v0) (V c main_v2)) := by
  show (cfg0.win 3).cut (grid0.coords t) ((dat0 V c).after 3 t) = _
  rw [after0_3]
  unfold out0_3
  rw [View.canon_unit_zero hz]
  simp only [View.ld_unit_zero (S := S2000x256) hz, View.ld_unit_zero (S := S2x256) hz, View.ld_unit_zero (S := S1x2) hz]
  obtain ⟨e00, e01, e10, e11, e20, e21, e30, e31⟩ := idx_facts0 t
  funext j
  refine node_block_eq (iblk0 V c 0 t) (iblk0 V c 1 t) (iblk0 V c 2 t) (V c main_arg0) (V c main_v0) (V c main_v2) t.val
    ?_ ?_ ?_ _ (((cfg0.win 3).blk t).view.emb j) ?_ ?_
  · intro p k n hn
    unfold iblk0
    rw [View.read_apply]
    show V c main_arg0 _ = V c main_arg0 _
    refine congrArg (V c main_arg0) (funext fun a => Fin.ext ?_)
    match a with
    | ⟨0, _⟩ => show win0_0.index t (0 : Fin 2) * 2000 + 1 * p.val = n.val; omega
    | ⟨1, _⟩ => show win0_0.index t (1 : Fin 2) * 256 + 1 * k.val = k.val; omega
  · funext y
    unfold iblk0
    rw [View.read_apply]
    show V c main_v0 _ = V c main_v0 y
    refine congrArg (V c main_v0) (funext fun a => Fin.ext ?_)
    have h0 : (y 0).val < 2 := (y 0).isLt
    have h1 : (y 1).val < 256 := (y 1).isLt
    match a with
    | ⟨0, _⟩ => show win0_1.index t (0 : Fin 2) * 2 + 1 * (y 0).val = (y 0).val; omega
    | ⟨1, _⟩ => show win0_1.index t (1 : Fin 2) * 256 + 1 * (y 1).val = (y 1).val; omega
  · funext y
    unfold iblk0
    rw [View.read_apply]
    show V c main_v2 _ = V c main_v2 y
    refine congrArg (V c main_v2) (funext fun a => Fin.ext ?_)
    match a with
    | ⟨0, _⟩ => show win0_2.index t (0 : Fin 2) * 1 + 1 * (y 0).val = (y 0).val; omega
    | ⟨1, _⟩ => show win0_2.index t (1 : Fin 2) * 2 + 1 * (y 1).val = (y 1).val; omega
  · show win0_3.index t (0 : Fin 2) * 2000 + 1 * (j 0).val = t.val * 2000 + (j 0).val; omega
  · show win0_3.index t (1 : Fin 2) * 2 + 1 * (j 1).val = (j 1).val; omega

/-- An index of the `[10000, 2]` array lies in point `t`'s block iff each coordinate lies in the block's range. -/
theorem mem_blk0 (t : Fin cfg0.N) (i : S10000x2.Idx) :
    i ∈ ((cfg0.win 3).blk t).view.set ↔ ∀ a : Fin 2, win0_3.index t a * S2000x2.size a ≤ (i a).val
      ∧ (i a).val < win0_3.index t a * S2000x2.size a + S2000x2.size a := by
  show i ∈ ((View.whole main_v3).slice (win0_3.rect t)).set ↔ _
  rw [View.set_slice_whole, Rect.mem_set_unit]
  exact Iff.rfl

/-- The five blocks of 2000 rows tile the 10000 rows, so after the region the output array IS the gate table. -/
theorem final0 (c : Dev nD) :
    (dat0 V c).arrAt 3 cfg0.N = nodeGates (V c main_arg0) (V c main_v0) (V c main_v2) :=
  (dat0 V c).arrAt_eq_of_cover 3 _ (fun t _ => flushed0_eq V c t) fun i => by
    have h0 : (i 0).val < 10000 := (i 0).isLt
    have h1 : (i 1).val < 2 := (i 1).isLt
    have hN : cfg0.N = 5 := N_0
    refine ⟨⟨(i 0).val / 2000, by rw [hN]; omega⟩, flush0_3 _, ?_⟩
    rw [mem_blk0]
    obtain ⟨-, -, -, -, -, -, e30, e31⟩ := idx_facts0 ⟨(i 0).val / 2000, by rw [hN]; omega⟩
    intro a
    match a with
    | ⟨0, _⟩ =>
      show win0_3.index _ (0 : Fin 2) * 2000 ≤ (i 0).val ∧ (i 0).val < win0_3.index _ (0 : Fin 2) * 2000 + 2000
      rw [e30]; show (i 0).val / 2000 * 2000 ≤ (i 0).val ∧ (i 0).val < (i 0).val / 2000 * 2000 + 2000; omega
    | ⟨1, _⟩ =>
      show win0_3.index _ (1 : Fin 2) * 2 ≤ (i 1).val ∧ (i 1).val < win0_3.index _ (1 : Fin 2) * 2 + 2
      rw [e31]; omega

end Cert.KernelIdeal.NodeRegion

end
-- ==== Proof.EdgeRegion.lean ====
/-
  The second kernel region, as a value: after its 40 grid points the `[320000, 1]` output array holds, at edge `e`,
  the logistic function of `(s[e] + d[e]) + (ef[e, :] · w + b)`, where `ef` is the edge-feature array, `s` and `d`
  the two gathered gate columns, `w` the weight row and `b` the bias, all as the region finds them.
  Point `t` handles edges `8000 t … 8000 t + 7999`; the 40 blocks tile the array.
-/
import proofs.«171114_j64407329571242_1_alg».proof.Proof.Gen.KernelIdeal.Frame
import proofs.«171114_j64407329571242_1_alg».proof.Proof.Payloads

set_option maxRecDepth 16384

noncomputable section

namespace Cert.KernelIdeal.EdgeRegion

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The gated edge column: entry `e` is the logistic function of the two gathered gates added, plus the edge row's
    dot product with the weight row and the bias. -/
def edgeGates (EF : S320000x256.Idx → EReal) (G1 G2 : S320000x1.Idx → EReal) (W : S1x256.Idx → EReal)
    (B : S1x1.Idx → EReal) : S320000x1.Idx → EReal :=
  fun i => Ideal.logistic ((G1 i + G2 i)
    + ((∑ k : Fin 256, EF (ix2 (⟨(i 0).val, (i 0).isLt⟩ : Fin 320000) k) * W (ix2 (0 : Fin 1) k)) + B (ix2 (0 : Fin 1) (0 : Fin 1))))

/-- A stored block whose rows are rows `r * 8000 + p` of the three long arrays holds, at `j`, the gated column's
    entry at edge `r * 8000 + j₀`. -/
theorem edge_block_eq (v0 : Vec Ideal S8000x256 .f32) (v1 : Vec Ideal S1x256 .f32) (v2 : Vec Ideal S1x1 .f32)
    (v10 v12 : Vec Ideal S8000x1 .f32)
    (EF : S320000x256.Idx → EReal) (G1 G2 : S320000x1.Idx → EReal) (W : S1x256.Idx → EReal) (B : S1x1.Idx → EReal) (r : ℕ)
    (h0 : ∀ (p : Fin 8000) (k : Fin 256) (e : Fin 320000), e.val = r * 8000 + p.val → v0 (ix2 p k) = EF (ix2 e k))
    (h1 : v1 = W) (h2 : v2 = B)
    (h10 : ∀ (p : Fin 8000) (u : Fin 1) (i : S320000x1.Idx), (i 0).val = r * 8000 + p.val → v10 (ix2 p u) = G1 i)
    (h12 : ∀ (p : Fin 8000) (u : Fin 1) (i : S320000x1.Idx), (i 0).val = r * 8000 + p.val → v12 (ix2 p u) = G2 i)
    (j : S8000x1.Idx) (i : S320000x1.Idx) (hi0 : (i 0).val = r * 8000 + (j 0).val) :
    k1_pay1 (F := Ideal) v0 v1 v2 v10 v12 j = edgeGates EF G1 G2 W B i := by
  subst h1 h2
  obtain ⟨p, u, rfl⟩ : ∃ (p : Fin 8000) (u : Fin 1), j = ix2 p u := ⟨j 0, j 1, eq_ix2 j⟩
  have hi0' : (i 0).val = r * 8000 + p.val := hi0
  rw [Payloads.edge_pay_apply]
  unfold edgeGates
  rw [h10 p u i hi0', h12 p u i hi0']
  refine congrArg (fun s => Ideal.logistic ((G1 i + G2 i) + (s + v2 (ix2 (0 : Fin 1) (0 : Fin 1))))) (Finset.sum_congr rfl fun k _ => ?_)
  rw [h0 p k ⟨(i 0).val, (i 0).isLt⟩ hi0']

variable (V : (c : Dev nD) → (b : Ref sig .tc) → Buf (Elt Ideal) ((c : Thread nD τ).loc b))

/-- The printed index maps over the 40 grid points: the three long windows and the output window sit at block row
    `t`, the weight and bias windows at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the gated column of the arrays as the region finds them. -/
theorem flushed1_eq (c : Dev nD) (t : Fin cfg1.N) :
    (dat1 V c).flushed 5 t = ((cfg1.win 5).blk t).view.read (Elt Ideal)
      (edgeGates (V c main_arg1) (V c main_v12) (V c main_v19) (V c main_arg8) (V c main_v20)) := by
  show (cfg1.win 5).cut (grid1.coords t) ((dat1 V c).after 5 t) = _
  rw [after1_5]
  unfold out1_5
  rw [View.canon_unit_zero hz]
  simp only [View.ld_unit_zero (S := S8000x256) hz, View.ld_unit_zero (S := S1x256) hz, View.ld_unit_zero (S := S1x1) hz,
    View.ld_unit_zero (S := S8000x1) hz]
  obtain ⟨e00, e01, e10, e11, e20, e21, e30, e31, e40, e41, e50, e51⟩ := idx_facts1 t
  funext j
  refine edge_block_eq (iblk1 V c 0 t) (iblk1 V c 3 t) (iblk1 V c 4 t) (iblk1 V c 1 t) (iblk1 V c 2 t)
    (V c main_arg1) (V c main_v12) (V c main_v19) (V c main_arg8) (V c main_v20) t.val
    ?_ ?_ ?_ ?_ ?_ _ (((cfg1.win 5).blk t).view.emb j) ?_
  · intro p k e he
    unfold iblk1
    rw [View.read_apply]
    show V c main_arg1 _ = V c main_arg1 _
    refine congrArg (V c main_arg1) (funext fun a => Fin.ext ?_)
    match a with
    | ⟨0, _⟩ => show win1_0.index t (0 : Fin 2) * 8000 + 1 * p.val = e.val; omega
    | ⟨1, _⟩ => show win1_0.index t (1 : Fin 2) * 256 + 1 * k.val = k.val; omega
  · funext y
    unfold iblk1
    rw [View.read_apply]
    show V c main_arg8 _ = V c main_arg8 y
    refine congrArg (V c main_arg8) (funext fun a => Fin.ext ?_)
    match a with
    | ⟨0, _⟩ => show win1_3.index t (0 : Fin 2) * 1 + 1 * (y 0).val = (y 0).val; omega
    | ⟨1, _⟩ => show win1_3.index t (1 : Fin 2) * 256 + 1 * (y 1).val = (y 1).val; omega
  · funext y
    unfold iblk1
    rw [View.read_apply]
    show V c main_v20 _ = V c main_v20 y
    refine congrArg (V c main_v20) (funext fun a => Fin.ext ?_)
    match a with
    | ⟨0, _⟩ => show win1_4.index t (0 : Fin 2) * 1 + 1 * (y 0).val = (y 0).val; omega
    | ⟨1, _⟩ => show win1_4.index t (1 : Fin 2) * 1 + 1 * (y 1).val = (y 1).val; omega
  · intro p u i hi
    unfold iblk1
    rw [View.read_apply]
    show V c main_v12 _ = V c main_v12 i
    refine congrArg (V c main_v12) (funext fun a => Fin.ext ?_)
    have hu : u.val = 0 := by omega
    have h1 : (i 1).val < 1 := (i 1).isLt
    match a with
    | ⟨0, _⟩ => show win1_1.index t (0 : Fin 2) * 8000 + 1 * p.val = (i 0).val; omega
    | ⟨1, _⟩ => show win1_1.index t (1 : Fin 2) * 1 + 1 * u.val = (i 1).val; omega
  · intro p u i hi
    unfold iblk1
    rw [View.read_apply]
    show V c main_v19 _ = V c main_v19 i
    refine congrArg (V c main_v19) (funext fun a => Fin.ext ?_)
    have hu : u.val = 0 := by omega
    have h1 : (i 1).val < 1 := (i 1).isLt
    match a with
    | ⟨0, _⟩ => show win1_2.index t (0 : Fin 2) * 8000 + 1 * p.val = (i 0).val; omega
    | ⟨1, _⟩ => show win1_2.index t (1 : Fin 2) * 1 + 1 * u.val = (i 1).val; omega
  · show win1_5.index t (0 : Fin 2) * 8000 + 1 * (j 0).val = t.val * 8000 + (j 0).val; omega

/-- An index of the `[320000, 1]` array lies in point `t`'s block iff each coordinate lies in the block's range. -/
theorem mem_blk1 (t : Fin cfg1.N) (i : S320000x1.Idx) :
    i ∈ ((cfg1.win 5).blk t).view.set ↔ ∀ a : Fin 2, win1_5.index t a * S8000x1.size a ≤ (i a).val
      ∧ (i a).val < win1_5.index t a * S8000x1.size a + S8000x1.size a := by
  show i ∈ ((View.whole main_v21).slice (win1_5.rect t)).set ↔ _
  rw [View.set_slice_whole, Rect.mem_set_unit]
  exact Iff.rfl

/-- The 40 blocks of 8000 rows tile the 320000 rows, so after the region the output array IS the gated column. -/
theorem final1 (c : Dev nD) :
    (dat1 V c).arrAt 5 cfg1.N
      = edgeGates (V c main_arg1) (V c main_v12) (V c main_v19) (V c main_arg8) (V c main_v20) :=
  (dat1 V c).arrAt_eq_of_cover 5 _ (fun t _ => flushed1_eq V c t) fun i => by
    have h0 : (i 0).val < 320000 := (i 0).isLt
    have h1 : (i 1).val < 1 := (i 1).isLt
    have hN : cfg1.N = 40 := N_1
    refine ⟨⟨(i 0).val / 8000, by rw [hN]; omega⟩, flush1_5 _, ?_⟩
    rw [mem_blk1]
    obtain ⟨-, -, -, -, -, -, -, -, -, -, e50, e51⟩ := idx_facts1 ⟨(i 0).val / 8000, by rw [hN]; omega⟩
    intro a
    match a with
    | ⟨0, _⟩ =>
      show win1_5.index _ (0 : Fin 2) * 8000 ≤ (i 0).val ∧ (i 0).val < win1_5.index _ (0 : Fin 2) * 8000 + 8000
      rw [e50]; show (i 0).val / 8000 * 8000 ≤ (i 0).val ∧ (i 0).val < (i 0).val / 8000 * 8000 + 8000; omega
    | ⟨1, _⟩ =>
      show win1_5.index _ (1 : Fin 2) * 1 ≤ (i 1).val ∧ (i 1).val < win1_5.index _ (1 : Fin 2) * 1 + 1
      rw [e51]; omega

end Cert.KernelIdeal.EdgeRegion

end
-- ==== Proof.Glue.lean ====
/-
  What the buffers hold at the boundaries of the kernel program's run, as terms of the launch memory.

  Before the first region the host concatenates the two node weight rows into a `[2, 256]` array and the two node
  biases into `[1, 2]`. The first region leaves the node-gate table. Between the regions the host cuts the table's
  two columns, normalises the source and destination indices (a negative index has the node count added) and gathers
  each column at them, and recasts the edge bias as `[1, 1]`. The second region leaves the gated edge column.
-/
import proofs.«171114_j64407329571242_1_alg».proof.Proof.Gen.KernelIdeal.Frame
import proofs.«171114_j64407329571242_1_alg».proof.Proof.NodeRegion
import proofs.«171114_j64407329571242_1_alg».proof.Proof.EdgeRegion
import Idealize.ShloMosaic.Lib.StableHlo.Run
import Idealize.ShloMosaic.Lib.ValueIdx

set_option maxRecDepth 16384

noncomputable section

namespace Cert.KernelIdeal.Glue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Before the first region -/

theorem W1_v0 (c : Dev nD) : W1 m ρ c (Proc.devRef .tc main_v0) = (concatenate S2x256 0 [⟨S1x256, m ((c : Thread nD τ).loc main_arg4)⟩, ⟨S1x256, m ((c : Thread nD τ).loc main_arg6)⟩] concatenates_S1x256_S1x256_S2x256_d0) := by
  show StableHlo.after hostOps0 (W0 m ρ c) (Proc.devRef .tc main_v0) = _
  after_results

theorem W1_v2 (c : Dev nD) : W1 m ρ c (Proc.devRef .tc main_v2) = (shapeCast S1x2 (concatenate S2 0 [⟨S1, m ((c : Thread nD τ).loc main_arg5)⟩, ⟨S1, m ((c : Thread nD τ).loc main_arg7)⟩] concatenates_S1_S1_S2_d0) shapeCasts_S2_S1x2) := by
  show StableHlo.after hostOps0 (W0 m ρ c) (Proc.devRef .tc main_v2) = _
  after_results
  rfl

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg1 (c : Dev nD) : W1 m ρ c (Proc.devRef .tc main_arg1) = m ((c : Thread nD τ).loc main_arg1) := by
  show StableHlo.after hostOps0 (W0 m ρ c) (Proc.devRef .tc main_arg1) = _
  after_results

theorem W1_arg2 (c : Dev nD) : W1 m ρ c (Proc.devRef .tc main_arg2) = m ((c : Thread nD τ).loc main_arg2) := by
  show StableHlo.after hostOps0 (W0 m ρ c) (Proc.devRef .tc main_arg2) = _
  after_results

theorem W1_arg3 (c : Dev nD) : W1 m ρ c (Proc.devRef .tc main_arg3) = m ((c : Thread nD τ).loc main_arg3) := by
  show StableHlo.after hostOps0 (W0 m ρ c) (Proc.devRef .tc main_arg3) = _
  after_results

theorem W1_arg8 (c : Dev nD) : W1 m ρ c (Proc.devRef .tc main_arg8) = m ((c : Thread nD τ).loc main_arg8) := by
  show StableHlo.after hostOps0 (W0 m ρ c) (Proc.devRef .tc main_arg8) = _
  after_results

theorem W1_arg9 (c : Dev nD) : W1 m ρ c (Proc.devRef .tc main_arg9) = m ((c : Thread nD τ).loc main_arg9) := by
  show StableHlo.after hostOps0 (W0 m ρ c) (Proc.devRef .tc main_arg9) = _
  after_results

/-! ## After the first region: the node-gate table, every argument as launched -/

/-- The node-gate table of the launch memory: features against the two weight rows, plus the two biases. -/
abbrev nodeTable (c : Dev nD) : S10000x2.Idx → EReal :=
  NodeRegion.nodeGates (m ((c : Thread nD τ).loc main_arg0)) (concatenate S2x256 0 [⟨S1x256, m ((c : Thread nD τ).loc main_arg4)⟩, ⟨S1x256, m ((c : Thread nD τ).loc main_arg6)⟩] concatenates_S1x256_S1x256_S2x256_d0) (shapeCast S1x2 (concatenate S2 0 [⟨S1, m ((c : Thread nD τ).loc main_arg5)⟩, ⟨S1, m ((c : Thread nD τ).loc main_arg7)⟩] concatenates_S1_S1_S2_d0) shapeCasts_S2_S1x2)

theorem W2_v3 (c : Dev nD) : W2 m ρ c (Proc.devRef .tc main_v3) = nodeTable m c := by
  refine (W2_arr m ρ c 3).trans ((NodeRegion.final0 (V1 m ρ) c).trans ?_)
  show NodeRegion.nodeGates (W1 m ρ c (Proc.devRef .tc main_arg0)) (W1 m ρ c (Proc.devRef .tc main_v0)) (W1 m ρ c (Proc.devRef .tc main_v2)) = _
  rw [W1_arg0, W1_v0, W1_v2]

theorem W2_arg1 (c : Dev nD) : W2 m ρ c (Proc.devRef .tc main_arg1) = m ((c : Thread nD τ).loc main_arg1) :=
  (W2_of_ne m ρ c main_arg1 (by decide)).trans (W1_arg1 m ρ c)

theorem W2_arg2 (c : Dev nD) : W2 m ρ c (Proc.devRef .tc main_arg2) = m ((c : Thread nD τ).loc main_arg2) :=
  (W2_of_ne m ρ c main_arg2 (by decide)).trans (W1_arg2 m ρ c)

theorem W2_arg3 (c : Dev nD) : W2 m ρ c (Proc.devRef .tc main_arg3) = m ((c : Thread nD τ).loc main_arg3) :=
  (W2_of_ne m ρ c main_arg3 (by decide)).trans (W1_arg3 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W2_arg9 (c : Dev nD) : W2 m ρ c (Proc.devRef .tc main_arg9) = m ((c : Thread nD τ).loc main_arg9) :=
  (W2_of_ne m ρ c main_arg9 (by decide)).trans (W1_arg9 m ρ c)

/-! ## Before the second region -/

/-- The gathered source gates: column 0 of the node table at the normalised source indices. -/
abbrev srcGates (c : Dev nD) : S320000x1.Idx → EReal :=
  Host.gather gather_S10000x1_S320000x1_S320000x1_1_0_n_n_0_1_11
    (extractStridedSlice S10000x1 ![0, 0] (nodeTable m c) slices_S10000x2_S10000x1_0_0) (broadcastInDim S320000x1 ![0] bcast_S320000_S320000x1_0 (select (cmpi .slt (m ((c : Thread nD τ).loc main_arg2)) (broadcastInDim S320000 ![] bcast_S_S320000 (constantI S_ 32 0#32))) (addi (m ((c : Thread nD τ).loc main_arg2)) (broadcastInDim S320000 ![] bcast_S_S320000 (constantI S_ 32 10000#32))) (m ((c : Thread nD τ).loc main_arg2))))

/-- The gathered destination gates: column 1 of the node table at the normalised destination indices. -/
abbrev dstGates (c : Dev nD) : S320000x1.Idx → EReal :=
  Host.gather gather_S10000x1_S320000x1_S320000x1_1_0_n_n_0_1_11
    (extractStridedSlice S10000x1 ![0, 1] (nodeTable m c) slices_S10000x2_S10000x1_0_1) (broadcastInDim S320000x1 ![0] bcast_S320000_S320000x1_0 (select (cmpi .slt (m ((c : Thread nD τ).loc main_arg3)) (broadcastInDim S320000 ![] bcast_S_S320000 (constantI S_ 32 0#32))) (addi (m ((c : Thread nD τ).loc main_arg3)) (broadcastInDim S320000 ![] bcast_S_S320000 (constantI S_ 32 10000#32))) (m ((c : Thread nD τ).loc main_arg3))))

theorem W3_v12 (c : Dev nD) : W3 m ρ c (Proc.devRef .tc main_v12) = srcGates m c := by
  have e : W3 m ρ c (Proc.devRef .tc main_v12) = Host.gather gather_S10000x1_S320000x1_S320000x1_1_0_n_n_0_1_11
      (extractStridedSlice S10000x1 ![0, 0] (W2 m ρ c (Proc.devRef .tc main_v3)) slices_S10000x2_S10000x1_0_0) (broadcastInDim S320000x1 ![0] bcast_S320000_S320000x1_0 (select (cmpi .slt (W2 m ρ c (Proc.devRef .tc main_arg2)) (broadcastInDim S320000 ![] bcast_S_S320000 (constantI S_ 32 0#32))) (addi (W2 m ρ c (Proc.devRef .tc main_arg2)) (broadcastInDim S320000 ![] bcast_S_S320000 (constantI S_ 32 10000#32))) (W2 m ρ c (Proc.devRef .tc main_arg2)))) := by
    show StableHlo.after hostOps1 (W2 m ρ c) (Proc.devRef .tc main_v12) = _
    after_results
  rw [e, W2_v3, W2_arg2]

theorem W3_v19 (c : Dev nD) : W3 m ρ c (Proc.devRef .tc main_v19) = dstGates m c := by
  have e : W3 m ρ c (Proc.devRef .tc main_v19) = Host.gather gather_S10000x1_S320000x1_S320000x1_1_0_n_n_0_1_11
      (extractStridedSlice S10000x1 ![0, 1] (W2 m ρ c (Proc.devRef .tc main_v3)) slices_S10000x2_S10000x1_0_1) (broadcastInDim S320000x1 ![0] bcast_S320000_S320000x1_0 (select (cmpi .slt (W2 m ρ c (Proc.devRef .tc main_arg3)) (broadcastInDim S320000 ![] bcast_S_S320000 (constantI S_ 32 0#32))) (addi (W2 m ρ c (Proc.devRef .tc main_arg3)) (broadcastInDim S320000 ![] bcast_S_S320000 (constantI S_ 32 10000#32))) (W2 m ρ c (Proc.devRef .tc main_arg3)))) := by
    show StableHlo.after hostOps1 (W2 m ρ c) (Proc.devRef .tc main_v19) = _
    after_results
  rw [e, W2_v3, W2_arg3]

theorem W3_v20 (c : Dev nD) : W3 m ρ c (Proc.devRef .tc main_v20) = shapeCast S1x1 (m ((c : Thread nD τ).loc main_arg9)) shapeCasts_S1_S1x1 := by
  have e : W3 m ρ c (Proc.devRef .tc main_v20) = shapeCast S1x1 (W2 m ρ c (Proc.devRef .tc main_arg9)) shapeCasts_S1_S1x1 := by
    show StableHlo.after hostOps1 (W2 m ρ c) (Proc.devRef .tc main_v20) = _
    after_results
    rfl
  rw [e, W2_arg9]

theorem W3_arg1 (c : Dev nD) : W3 m ρ c (Proc.devRef .tc main_arg1) = m ((c : Thread nD τ).loc main_arg1) := by
  have e : W3 m ρ c (Proc.devRef .tc main_arg1) = W2 m ρ c (Proc.devRef .tc main_arg1) := by
    show StableHlo.after hostOps1 (W2 m ρ c) (Proc.devRef .tc main_arg1) = _
    after_results
  rw [e, W2_arg1]

theorem W3_arg8 (c : Dev nD) : W3 m ρ c (Proc.devRef .tc main_arg8) = m ((c : Thread nD τ).loc main_arg8) := by
  have e : W3 m ρ c (Proc.devRef .tc main_arg8) = W2 m ρ c (Proc.devRef .tc main_arg8) := by
    show StableHlo.after hostOps1 (W2 m ρ c) (Proc.devRef .tc main_arg8) = _
    after_results
  rw [e, W2_arg8]

/-! ## After the second region: the result -/

/-- The result array after the run, as one term of the launch memory. -/
theorem W4_v21 (c : Dev nD) : W4 m ρ c (Proc.devRef .tc main_v21)
    = EdgeRegion.edgeGates (m ((c : Thread nD τ).loc main_arg1)) (srcGates m c) (dstGates m c) (m ((c : Thread nD τ).loc main_arg8)) (shapeCast S1x1 (m ((c : Thread nD τ).loc main_arg9)) shapeCasts_S1_S1x1) := by
  refine (W4_arr m ρ c 5).trans ((EdgeRegion.final1 (V3 m ρ) c).trans ?_)
  show EdgeRegion.edgeGates (W3 m ρ c (Proc.devRef .tc main_arg1)) (W3 m ρ c (Proc.devRef .tc main_v12)) (W3 m ρ c (Proc.devRef .tc main_v19))
    (W3 m ρ c (Proc.devRef .tc main_arg8)) (W3 m ρ c (Proc.devRef .tc main_v20)) = _
  rw [W3_arg1, W3_v12, W3_v19, W3_arg8, W3_v20]

end Cert.KernelIdeal.Glue

end
-- ==== Proof.NodeColumns.lean ====
/-
  The node-gate table's two columns, read at an index, as terms of the launched weight rows and biases.

  The table is built from the CONCATENATED weights `[w_src; w_dst] : [2, 256]` and biases `[b_src, b_dst]` recast as
  `[1, 2]`. Column 0 at node `n` reads weight row 0 of the concatenation, which is `w_src`, and bias entry 0, which
  is `b_src`; column 1 reads `w_dst` and `b_dst`. So each column is a plain linear gate of the node's feature row.
-/
import proofs.«171114_j64407329571242_1_alg».proof.Proof.NodeRegion
import Idealize.ShloMosaic.Lib.ValueLayout

noncomputable section

namespace Cert.KernelIdeal.NodeColumns

open Cert.KernelIdeal Cert.KernelIdeal.Facts₀ Idealize.ShloMosaic Idealize.ShloMosaic.ValueIdx Cert.KernelIdeal.NodeRegion

variable (X : S10000x256.Idx → EReal) (w4 w6 : S1x256.Idx → EReal) (b5 b7 : S1.Idx → EReal)

/-- Row 0 of the concatenated weights is the first weight row. -/
theorem wcat_row0 (k : Fin 256) :
    concatenate S2x256 0 [⟨S1x256, w4⟩, ⟨S1x256, w6⟩] concatenates_S1x256_S1x256_S2x256_d0 (ix2 (0 : Fin 2) k) = w4 (ix2 (0 : Fin 1) k) :=
  concatenate_pair_apply_left (t := S2x256) (s₁ := S1x256) (s₂ := S1x256) (0 : Fin 2) w4 w6
    concatenates_S1x256_S1x256_S2x256_d0 (ix2 (0 : Fin 2) k) rfl (ix2 (0 : Fin 1) k)
    (fun b => by match b with | ⟨0, _⟩ => rfl | ⟨1, _⟩ => rfl)

/-- Row 1 of the concatenated weights is the second weight row. -/
theorem wcat_row1 (k : Fin 256) :
    concatenate S2x256 0 [⟨S1x256, w4⟩, ⟨S1x256, w6⟩] concatenates_S1x256_S1x256_S2x256_d0 (ix2 (1 : Fin 2) k) = w6 (ix2 (0 : Fin 1) k) :=
  concatenate_pair_apply_right (t := S2x256) (s₁ := S1x256) (s₂ := S1x256) (0 : Fin 2) w4 w6
    concatenates_S1x256_S1x256_S2x256_d0 (ix2 (1 : Fin 2) k) rfl rfl (ix2 (0 : Fin 1) k)
    (fun b hb => by match b with | ⟨0, _⟩ => exact absurd rfl hb | ⟨1, _⟩ => rfl) rfl

/-- Entry 0 of the recast concatenated biases is the first bias. -/
theorem bcat_col0 :
    shapeCast S1x2 (concatenate S2 0 [⟨S1, b5⟩, ⟨S1, b7⟩] concatenates_S1_S1_S2_d0) shapeCasts_S2_S1x2 (ix2 (0 : Fin 1) (0 : Fin 2))
      = b5 (ix1 (0 : Fin 1)) :=
  (shapeCast_a_1a_apply _ shapeCasts_S2_S1x2 (0 : Fin 1) (0 : Fin 2)).trans
    (concatenate_pair_apply_left (t := S2) (s₁ := S1) (s₂ := S1) (0 : Fin 1) b5 b7 concatenates_S1_S1_S2_d0
      (ix1 (0 : Fin 2)) rfl (ix1 (0 : Fin 1)) (fun b => by match b with | ⟨0, _⟩ => rfl))

/-- Entry 1 of the recast concatenated biases is the second bias. -/
theorem bcat_col1 :
    shapeCast S1x2 (concatenate S2 0 [⟨S1, b5⟩, ⟨S1, b7⟩] concatenates_S1_S1_S2_d0) shapeCasts_S2_S1x2 (ix2 (0 : Fin 1) (1 : Fin 2))
      = b7 (ix1 (0 : Fin 1)) :=
  (shapeCast_a_1a_apply _ shapeCasts_S2_S1x2 (0 : Fin 1) (1 : Fin 2)).trans
    (concatenate_pair_apply_right (t := S2) (s₁ := S1) (s₂ := S1) (0 : Fin 1) b5 b7 concatenates_S1_S1_S2_d0
      (ix1 (1 : Fin 2)) rfl rfl (ix1 (0 : Fin 1)) (fun b hb => by match b with | ⟨0, _⟩ => exact absurd rfl hb) rfl)

/-- Column 0 of the node table at node `n`: the source gate. -/
theorem col0_apply (n : Fin 10000) (u : Fin 1) :
    extractStridedSlice S10000x1 ![0, 0]
        (nodeGates X (concatenate S2x256 0 [⟨S1x256, w4⟩, ⟨S1x256, w6⟩] concatenates_S1x256_S1x256_S2x256_d0)
          (shapeCast S1x2 (concatenate S2 0 [⟨S1, b5⟩, ⟨S1, b7⟩] concatenates_S1_S1_S2_d0) shapeCasts_S2_S1x2))
        slices_S10000x2_S10000x1_0_0 (ix2 n u)
      = (∑ k : Fin 256, X (ix2 n k) * w4 (ix2 (0 : Fin 1) k)) + b5 (ix1 (0 : Fin 1)) := by
  have hu : u = 0 := Fin.ext (by omega)
  subst hu
  rw [slice2_axis1_apply 0 _ slices_S10000x2_S10000x1_0_0 n (0 : Fin 1) (0 : Fin 2) rfl]
  unfold nodeGates
  refine congrArg₂ (· + ·) (Finset.sum_congr rfl fun k _ => ?_) (bcat_col0 b5 b7)
  exact congrArg (X (ix2 n k) * ·) (wcat_row0 w4 w6 k)

/-- Column 1 of the node table at node `n`: the destination gate. -/
theorem col1_apply (n : Fin 10000) (u : Fin 1) :
    extractStridedSlice S10000x1 ![0, 1]
        (nodeGates X (concatenate S2x256 0 [⟨S1x256, w4⟩, ⟨S1x256, w6⟩] concatenates_S1x256_S1x256_S2x256_d0)
          (shapeCast S1x2 (concatenate S2 0 [⟨S1, b5⟩, ⟨S1, b7⟩] concatenates_S1_S1_S2_d0) shapeCasts_S2_S1x2))
        slices_S10000x2_S10000x1_0_1 (ix2 n u)
      = (∑ k : Fin 256, X (ix2 n k) * w6 (ix2 (0 : Fin 1) k)) + b7 (ix1 (0 : Fin 1)) := by
  have hu : u = 0 := Fin.ext (by omega)
  subst hu
  rw [slice2_axis1_apply 1 _ slices_S10000x2_S10000x1_0_1 n (0 : Fin 1) (1 : Fin 2) rfl]
  unfold nodeGates
  refine congrArg₂ (· + ·) (Finset.sum_congr rfl fun k _ => ?_) (bcat_col1 b5 b7)
  exact congrArg (X (ix2 n k) * ·) (wcat_row1 w4 w6 k)

/-- The edge bias recast as `[1, 1]` holds the bias. -/
theorem bias11 (b9 : S1.Idx → EReal) :
    shapeCast S1x1 b9 shapeCasts_S1_S1x1 (ix2 (0 : Fin 1) (0 : Fin 1)) = b9 (ix1 (0 : Fin 1)) :=
  shapeCast_a_1a_apply b9 shapeCasts_S1_S1x1 (0 : Fin 1) (0 : Fin 1)

end Cert.KernelIdeal.NodeColumns

end
-- ==== Proof.RefValue.lean ====
/-
  The reference program's stages, read at an index, over the extended reals.

  A node gate is `x[n, :] · w + b` (the host's matrix product against the transposed weight row is the sum over the
  256 features; the bias is broadcast from `[1]`), the edge term likewise, and the result at edge `e` is
  `1 / (1 + exp (-(s[e] + d[e] + edge[e])))`, which is the logistic function of that sum.
-/
import proofs.«171114_j64407329571242_1_alg».proof.Proof.Gen.ReferenceIdeal.Read
import Idealize.ShloMosaic.Lib.ValueIdx

noncomputable section

namespace Cert.ReferenceIdeal.RefValue

open Cert.ReferenceIdeal Cert.ReferenceIdeal.Read Idealize.ShloMosaic Idealize.ShloMosaic.ValueIdx

/-- The float word `0x3F800000` is the number one. -/
theorem one_word : Ideal.ofBits .f32 0x3F800000#32 = 1 := by
  simp [Ideal.ofBits, Ideal.ieee, -EReal.coe_mul]; norm_num

/-- The source gate of node `n`. -/
theorem src_gate_apply (x0 : (⟨S10000x256, .f32⟩ : BufTy).Contents (Elt Ideal)) (x4 : (⟨S1x256, .f32⟩ : BufTy).Contents (Elt Ideal)) (x5 : (⟨S1, .f32⟩ : BufTy).Contents (Elt Ideal)) (n : Fin 10000) (u : Fin 1) :
    val_main_v4 (F := Ideal) x0 x4 x5 (ix2 n u)
      = (∑ k : Fin 256, x0 (ix2 n k) * x4 (ix2 (0 : Fin 1) k)) + x5 (ix1 (0 : Fin 1)) := by
  have hu : u = 0 := Fin.ext (by omega)
  subst hu
  rw [val_main_v4_apply, val_main_v1_apply, val_main_v3_apply, val_main_v2_apply]
  refine congrArg₂ (· + ·) (Finset.sum_congr rfl fun k _ => ?_)
    (congrArg x5 (funext fun a => by match a with | ⟨0, _⟩ => rfl))
  rw [val_main_v0_apply]
  exact congrArg₂ (· * ·)
    (congrArg x0 (funext fun a => by match a with | ⟨0, _⟩ => rfl | ⟨1, _⟩ => rfl))
    (congrArg x4 (funext fun a => by match a with | ⟨0, _⟩ => rfl | ⟨1, _⟩ => rfl))

/-- The destination gate of node `n`. -/
theorem dst_gate_apply (x0 : (⟨S10000x256, .f32⟩ : BufTy).Contents (Elt Ideal)) (x6 : (⟨S1x256, .f32⟩ : BufTy).Contents (Elt Ideal)) (x7 : (⟨S1, .f32⟩ : BufTy).Contents (Elt Ideal)) (n : Fin 10000) (u : Fin 1) :
    val_main_v9 (F := Ideal) x0 x6 x7 (ix2 n u)
      = (∑ k : Fin 256, x0 (ix2 n k) * x6 (ix2 (0 : Fin 1) k)) + x7 (ix1 (0 : Fin 1)) := by
  have hu : u = 0 := Fin.ext (by omega)
  subst hu
  rw [val_main_v9_apply, val_main_v6_apply, val_main_v8_apply, val_main_v7_apply]
  refine congrArg₂ (· + ·) (Finset.sum_congr rfl fun k _ => ?_)
    (congrArg x7 (funext fun a => by match a with | ⟨0, _⟩ => rfl))
  rw [val_main_v5_apply]
  exact congrArg₂ (· * ·)
    (congrArg x0 (funext fun a => by match a with | ⟨0, _⟩ => rfl | ⟨1, _⟩ => rfl))
    (congrArg x6 (funext fun a => by match a with | ⟨0, _⟩ => rfl | ⟨1, _⟩ => rfl))

/-- The edge term of edge `e`. -/
theorem edge_term_apply (x1 : (⟨S320000x256, .f32⟩ : BufTy).Contents (Elt Ideal)) (x8 : (⟨S1x256, .f32⟩ : BufTy).Contents (Elt Ideal)) (x9 : (⟨S1, .f32⟩ : BufTy).Contents (Elt Ideal)) (n : Fin 320000) (u : Fin 1) :
    val_main_v29 (F := Ideal) x1 x8 x9 (ix2 n u)
      = (∑ k : Fin 256, x1 (ix2 n k) * x8 (ix2 (0 : Fin 1) k)) + x9 (ix1 (0 : Fin 1)) := by
  have hu : u = 0 := Fin.ext (by omega)
  subst hu
  rw [val_main_v29_apply, val_main_v26_apply, val_main_v28_apply, val_main_v27_apply]
  refine congrArg₂ (· + ·) (Finset.sum_congr rfl fun k _ => ?_)
    (congrArg x9 (funext fun a => by match a with | ⟨0, _⟩ => rfl))
  rw [val_main_v25_apply]
  exact congrArg₂ (· * ·)
    (congrArg x1 (funext fun a => by match a with | ⟨0, _⟩ => rfl | ⟨1, _⟩ => rfl))
    (congrArg x8 (funext fun a => by match a with | ⟨0, _⟩ => rfl | ⟨1, _⟩ => rfl))

/-- The result at an index: the logistic function of the two gathered gates added, plus the edge term. -/
theorem out_apply (x0 : (⟨S10000x256, .f32⟩ : BufTy).Contents (Elt Ideal)) (x1 : (⟨S320000x256, .f32⟩ : BufTy).Contents (Elt Ideal)) (x2 x3 : (⟨S320000, .i32⟩ : BufTy).Contents (Elt Ideal)) (x4 : (⟨S1x256, .f32⟩ : BufTy).Contents (Elt Ideal)) (x5 : (⟨S1, .f32⟩ : BufTy).Contents (Elt Ideal)) (x6 : (⟨S1x256, .f32⟩ : BufTy).Contents (Elt Ideal)) (x7 : (⟨S1, .f32⟩ : BufTy).Contents (Elt Ideal)) (x8 : (⟨S1x256, .f32⟩ : BufTy).Contents (Elt Ideal)) (x9 : (⟨S1, .f32⟩ : BufTy).Contents (Elt Ideal)) (i : S320000x1.Idx) :
    val_main_v36 (F := Ideal) x0 x1 x2 x3 x4 x5 x6 x7 x8 x9 i
      = Ideal.logistic ((val_main_v16 (F := Ideal) x0 x2 x4 x5 i + val_main_v23 (F := Ideal) x0 x3 x6 x7 i)
          + val_main_v29 (F := Ideal) x1 x8 x9 i) := by
  rw [val_main_v36_apply, val_main_v35_apply, val_main_cst_3_apply, val_main_v34_apply, val_main_v33_apply,
    val_main_cst_apply, val_main_v32_apply, val_main_v31_apply, val_main_v30_apply, val_main_v24_apply]
  simp only [Ideal.hostDivf_def, Ideal.addf_def, Ideal.hostUnary_exp_def, Ideal.hostNegf_def, Ideal.negf_def,
    Ideal.ofBits_def, one_word]
  rfl

end Cert.ReferenceIdeal.RefValue

end
-- ==== Proof.Bridge.lean ====
/-
  The kernel program's result is the reference's, as functions of the launch memory, over the extended reals.

  Both compute, at edge `e`, the logistic function of `(s[src e] + d[dst e]) + (ef[e, :] · w_edge + b_edge)` where
  `s[n] = x[n, :] · w_src + b_src` and `d[n] = x[n, :] · w_dst + b_dst`. The kernel program gets `s` and `d` as the
  two columns of one node table built from concatenated weights and biases; the reference as two separate matrix
  products. Column by column these are the same sums, so the two gathers (the same gather at the same normalised
  indices) agree, and so do the results. No law beyond reading each side at an index is needed: the sums are taken
  over the same index set in the same order and the additions are associated the same way.
-/
import proofs.«171114_j64407329571242_1_alg».proof.Defs
import proofs.«171114_j64407329571242_1_alg».proof.Proof.Glue
import proofs.«171114_j64407329571242_1_alg».proof.Proof.NodeColumns
import proofs.«171114_j64407329571242_1_alg».proof.Proof.RefValue

set_option maxRecDepth 16384

noncomputable section

namespace Cert.KernelIdeal.Bridge

open Cert.KernelIdeal Cert.KernelIdeal.Facts₀
open Idealize.ShloMosaic Idealize.ShloMosaic.TcCoe Idealize.ShloMosaic.ValueIdx Idealize.SL.Sem

variable (m : (ℓ : Loc nD τ sig) → Buf (Elt Ideal) ℓ)

/-- The gathered source gates are the reference's. -/
theorem src_eq (c : Dev nD) :
    Glue.srcGates m c = Cert.ReferenceIdeal.Read.val_main_v16 (F := Ideal) (m ((c : Thread nD τ).loc main_arg0)) (m ((c : Thread nD τ).loc main_arg2)) (m ((c : Thread nD τ).loc main_arg4)) (m ((c : Thread nD τ).loc main_arg5)) := by
  have hcol : extractStridedSlice S10000x1 ![0, 0] (Glue.nodeTable m c) slices_S10000x2_S10000x1_0_0
      = Cert.ReferenceIdeal.Read.val_main_v4 (F := Ideal) (m ((c : Thread nD τ).loc main_arg0)) (m ((c : Thread nD τ).loc main_arg4)) (m ((c : Thread nD τ).loc main_arg5)) := by
    funext j
    obtain ⟨n, u, rfl⟩ : ∃ (n : Fin 10000) (u : Fin 1), j = ix2 n u := ⟨j 0, j 1, eq_ix2 j⟩
    exact (NodeColumns.col0_apply _ _ _ _ _ n u).trans (Cert.ReferenceIdeal.RefValue.src_gate_apply _ _ _ n u).symm
  show Host.gather _ (extractStridedSlice S10000x1 ![0, 0] (Glue.nodeTable m c) slices_S10000x2_S10000x1_0_0) _ = _
  rw [hcol]
  rfl

/-- The gathered destination gates are the reference's. -/
theorem dst_eq (c : Dev nD) :
    Glue.dstGates m c = Cert.ReferenceIdeal.Read.val_main_v23 (F := Ideal) (m ((c : Thread nD τ).loc main_arg0)) (m ((c : Thread nD τ).loc main_arg3)) (m ((c : Thread nD τ).loc main_arg6)) (m ((c : Thread nD τ).loc main_arg7)) := by
  have hcol : extractStridedSlice S10000x1 ![0, 1] (Glue.nodeTable m c) slices_S10000x2_S10000x1_0_1
      = Cert.ReferenceIdeal.Read.val_main_v9 (F := Ideal) (m ((c : Thread nD τ).loc main_arg0)) (m ((c : Thread nD τ).loc main_arg6)) (m ((c : Thread nD τ).loc main_arg7)) := by
    funext j
    obtain ⟨n, u, rfl⟩ : ∃ (n : Fin 10000) (u : Fin 1), j = ix2 n u := ⟨j 0, j 1, eq_ix2 j⟩
    exact (NodeColumns.col1_apply _ _ _ _ _ n u).trans (Cert.ReferenceIdeal.RefValue.dst_gate_apply _ _ _ n u).symm
  show Host.gather _ (extractStridedSlice S10000x1 ![0, 1] (Glue.nodeTable m c) slices_S10000x2_S10000x1_0_1) _ = _
  rw [hcol]
  rfl

/-- The kernel program's result array, as a term of the launch memory, is the reference's result stage. -/
theorem result_eq (c : Dev nD) :
    EdgeRegion.edgeGates (m ((c : Thread nD τ).loc main_arg1)) (Glue.srcGates m c) (Glue.dstGates m c) (m ((c : Thread nD τ).loc main_arg8)) (shapeCast S1x1 (m ((c : Thread nD τ).loc main_arg9)) shapeCasts_S1_S1x1)
      = Cert.ReferenceIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  refine Eq.trans ?_ (Cert.ReferenceIdeal.RefValue.out_apply _ _ _ _ _ _ _ _ _ _ i).symm
  unfold EdgeRegion.edgeGates
  refine congrArg Ideal.logistic (congrArg₂ (· + ·)
    (congrArg₂ (· + ·) (congrFun (src_eq m c) i) (congrFun (dst_eq m c) i)) ?_)
  obtain ⟨e, u, rfl⟩ : ∃ (e : Fin 320000) (u : Fin 1), i = ix2 e u := ⟨i 0, i 1, eq_ix2 i⟩
  refine Eq.trans ?_ (Cert.ReferenceIdeal.RefValue.edge_term_apply _ _ _ e u).symm
  exact congrArg₂ (· + ·) rfl (NodeColumns.bias11 _)

end Cert.KernelIdeal.Bridge

end
-- ==== Proof.lean ====
/-
  Edge gates of a bond-order convolution: for every edge `e`,
      out[e] = logistic ((s[src e] + d[dst e]) + (edge_feats[e, :] · W_edge + b_edge)),
  with the per-node gates `s[n] = node_feats[n, :] · W_src + b_src` and `d[n] = node_feats[n, :] · W_dst + b_dst`, and the
  source / destination indices normalised as jnp indexing does (a negative index has the node count added; the gather
  clamps).

  The kernel program computes the two node gates in ONE pass over the node features, as the two columns of a
  `[10000, 2]` table (weights concatenated to `[2, 256]`, biases to `[1, 2]`; each entry a row's products with a weight
  row summed along the lanes, plus the bias), gathers each column on the host, and in a second pass over the edge
  features adds the edge's own row-dot and bias and applies the logistic function. The reference computes the same
  three linear gates as matrix products against transposed weight rows, gathers, adds in the same association, and
  spells the logistic function as `1 / (1 + exp (-x))`.

  Over the extended reals the two results are the same function of the inputs, index by index: a lane sum and a
  matrix product against a single column are the same finite sum of the same products in the same order; a change of
  layout only renames indices; the logistic function IS `1 / (1 + exp (-x))` there, infinities included. The gather
  is applied on both sides to equal tables at the same index array, so it is never opened. No step uses that the inputs
  are finite.

  The three frames: the two kernel programs' are the frame certificates of their two-region runs; the reference's is
  its run with the result dropped. The idealization rewrote nothing, so `preserves` is `True`.
-/
import proofs.«171114_j64407329571242_1_alg».proof.Defs
import proofs.«171114_j64407329571242_1_alg».proof.Proof.Gen.Kernel
import proofs.«171114_j64407329571242_1_alg».proof.Proof.Gen.Kernel.Skeleton
import proofs.«171114_j64407329571242_1_alg».proof.Proof.Gen.Kernel.Launch
import proofs.«171114_j64407329571242_1_alg».proof.Proof.Gen.Kernel.Points
import proofs.«171114_j64407329571242_1_alg».proof.Proof.Gen.Kernel.Frame
import proofs.«171114_j64407329571242_1_alg».proof.Proof.Gen.KernelIdeal
import proofs.«171114_j64407329571242_1_alg».proof.Proof.Gen.KernelIdeal.Skeleton
import proofs.«171114_j64407329571242_1_alg».proof.Proof.Gen.KernelIdeal.Launch
import proofs.«171114_j64407329571242_1_alg».proof.Proof.Gen.KernelIdeal.Points
import proofs.«171114_j64407329571242_1_alg».proof.Proof.Gen.KernelIdeal.Frame
import proofs.«171114_j64407329571242_1_alg».proof.Proof.Gen.ReferenceIdeal
import proofs.«171114_j64407329571242_1_alg».proof.Proof.Gen.ReferenceIdeal.Run
import proofs.«171114_j64407329571242_1_alg».proof.Proof.Gen.ReferenceIdeal.Read
import proofs.«171114_j64407329571242_1_alg».proof.Proof.Gen.Pre_finite_inputs
import proofs.«171114_j64407329571242_1_alg».proof.Proof.KernelRun
import proofs.«171114_j64407329571242_1_alg».proof.Proof.Glue
import proofs.«171114_j64407329571242_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the result array at the reference's last stage of the (agreeing) inputs: the
    kernel program's by its run read through the two regions and the host operations between them, then the
    index-by-index identification; the reference's by its run. -/
theorem algebraic : Cert.algebraic_KernelIdeal_ReferenceIdeal := by
  intro m ρ m' ρ' _ hagree
  refine ⟨fun c => Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans ((Cert.KernelIdeal.Glue.W4_v21 m ρ c).trans (Cert.KernelIdeal.Bridge.result_eq m c)), (h c).2⟩)
      (Cert.KernelIdeal.ValueRun.run_main m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [h0, h1, h2, h3, h4, h5, h6, h7, h8, h9]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
